-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x64 : Shape := ⟨2, ![4096, 64]⟩
abbrev S16384x4 : Shape := ⟨2, ![16384, 4]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16384x4 : S_.BroadcastsInDim S16384x4 (![] : Fin 0 → Fin S16384x4.rank)
  reducesTo_S16384x4_S_d0_1 : S16384x4.ReducesTo [0, 1] S_

variable [Facts]

def fn_part1 {F : FTy → Type} [FloatOps F] (main_arg3 : IVec S16384x4 32) (main_v13 : IVec S_ 1) (main_v15 : IVec S16384x4 1) (main_c_5 : IVec S_ 1) : IVec S_ 1 :=
  let main_v16 : IVec S_ 1 := (fun x v => Host.reduce IntOp.andi x v reducesTo_S16384x4_S_d0_1 h_S_) main_v15 main_c_5
  let main_v17 : IVec S_ 1 := andi main_v13 main_v16
  let main_c_6 : IVec S_ 32 := constantI S_ 32 8#32
  let main_v18 : IVec S16384x4 32 := broadcastInDim S16384x4 ![] bcast_S_S16384x4 main_c_6
  let main_v19 : IVec S16384x4 1 := cmpi .slt main_arg3 main_v18
  let main_c_7 : IVec S_ 1 := constantI S_ 1 1#1
  let main_v20 : IVec S_ 1 := (fun x v => Host.reduce IntOp.andi x v reducesTo_S16384x4_S_d0_1 h_S_) main_v19 main_c_7
  let main_v21 : IVec S_ 1 := andi main_v17 main_v20
  main_v21

def fn {F : FTy → Type} [FloatOps F] (main_arg0 : FVec F S16384x4096 .f32) (main_arg1 : FVec F S16384x4096 .f32) (main_arg2 : FVec F S4096x64 .f32) (main_arg3 : IVec S16384x4 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_c_4 : IVec S_ 32 := constantI S_ 32 0#32
  let main_v14 : IVec S16384x4 32 := broadcastInDim S16384x4 ![] bcast_S_S16384x4 main_c_4
  let main_v15 : IVec S16384x4 1 := cmpi .sge main_arg3 main_v14
  let main_c_5 : IVec S_ 1 := constantI S_ 1 1#1
  fn_part1 (F := F) main_arg3 main_v13 main_v15 main_c_5
-- ==== Kernel.lean ====
abbrev S16384x4096 : Shape := ⟨2, ![16384, 4096]⟩
abbrev S4096x64 : Shape := ⟨2, ![4096, 64]⟩
abbrev S16384x4 : Shape := ⟨2, ![16384, 4]⟩
abbrev S256x4096 : Shape := ⟨2, ![256, 4096]⟩
abbrev S256x4 : Shape := ⟨2, ![256, 4]⟩
abbrev S256x64 : Shape := ⟨2, ![256, 64]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x64, .f32⟩
  | .hbm, ⟨3, _⟩ => ⟨S16384x4, .i32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x64, .f32⟩
  | .local _ .vmem, ⟨5, _⟩ => ⟨S256x4, .i32⟩
  | .local _ .vmem, ⟨6, _⟩ => ⟨S256x4, .i32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  inb_S256x4_S256x4_0_0 : ∀ a, (![0, 0] : Fin 2 → Nat) a + S256x4.size a ≤ S256x4.size a
  h_S256x4 : 0 < S256x4.numel
  iota_S256x64_d1_w32 : S256x64.Iotas .tc 32 [1]
  natLt_1_32 : 1 < 32
  slices_S256x4_o0_0_S256x1 : S256x4.Slices ![0, 0] S256x1
  broadcasts_S256x1_S256x64 : S256x1.Broadcasts S256x64
  slices_S256x4_o0_1_S256x1 : S256x4.Slices ![0, 1] S256x1
  slices_S256x4_o0_2_S256x1 : S256x4.Slices ![0, 2] S256x1
  slices_S256x4_o0_3_S256x1 : S256x4.Slices ![0, 3] S256x1
  dot_S256x4096_S4096x64_S256x64_1_0_0_1_n_n_wf : DotDims.WF S256x4096 S4096x64 S256x64 [1] [0] [0] [1] [] []
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S16384x4.size a
  hwx0_3 : ∀ i : grid0.Coords, EltTy.bits .i32 = 32 ∨ (Rect.block (s := S16384x4) S256x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x64 : Shape := ⟨2, ![4096, 64]⟩
abbrev S16384x4 : Shape := ⟨2, ![16384, 4]⟩
abbrev S16384x64 : Shape := ⟨2, ![16384, 64]⟩
abbrev S16384x4x1 : Shape := ⟨3, ![16384, 4, 1]⟩
abbrev S_ : Shape := ⟨0, ![]⟩
abbrev S8 : Shape := ⟨1, ![8]⟩
abbrev S1x1x8 : Shape := ⟨3, ![1, 1, 8]⟩
abbrev S16384x4x8 : Shape := ⟨3, ![16384, 4, 8]⟩
abbrev S16384x32 : Shape := ⟨2, ![16384, 32]⟩
abbrev S16384 : Shape := ⟨1, ![16384]⟩
abbrev S16384x1 : Shape := ⟨2, ![16384, 1]⟩
abbrev S16384x32x1 : Shape := ⟨3, ![16384, 32, 1]⟩
abbrev S16384x32x2 : Shape := ⟨3, ![16384, 32, 2]⟩
abbrev S64x4096 : Shape := ⟨2, ![64, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x64, .f32⟩
  | .hbm, ⟨3, _⟩ => ⟨S16384x4, .i32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x4x1, .i32⟩
  | .hbm, ⟨8, _⟩ => ⟨S_, .i32⟩
  | .hbm, ⟨9, _⟩ => ⟨S16384x4x1, .i32⟩
  | .hbm, ⟨10, _⟩ => ⟨S16384x4x1, .i32⟩
  | .hbm, ⟨11, _⟩ => ⟨S8, .i32⟩
  | .hbm, ⟨12, _⟩ => ⟨S1x1x8, .i32⟩
  | .hbm, ⟨13, _⟩ => ⟨S16384x4x8, .i32⟩
  | .hbm, ⟨14, _⟩ => ⟨S16384x4x8, .i32⟩
  | .hbm, ⟨15, _⟩ => ⟨S16384x4x8, .i32⟩
  | .hbm, ⟨16, _⟩ => ⟨S16384x32, .i32⟩
  | .hbm, ⟨17, _⟩ => ⟨S_, .f32⟩
  | .hbm, ⟨18, _⟩ => ⟨S16384x64, .f32⟩
  | .hbm, ⟨19, _⟩ => ⟨S16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S_, .i32⟩
  | .hbm, ⟨29, _⟩ => ⟨S16384x32, .i32⟩
  | .hbm, ⟨30, _⟩ => ⟨S16384x32, .i1⟩
  | .hbm, ⟨31, _⟩ => ⟨S_, .i32⟩
  | .hbm, ⟨32, _⟩ => ⟨S16384x32, .i32⟩
  | .hbm, ⟨33, _⟩ => ⟨S16384x32, .i32⟩
  | .hbm, ⟨34, _⟩ => ⟨S16384x32, .i32⟩
  | .hbm, ⟨35, _⟩ => ⟨S16384x32, .i32⟩
  | .hbm, ⟨36, _⟩ => ⟨S16384x32x1, .i32⟩
  | .hbm, ⟨37, _⟩ => ⟨S16384x32x1, .i32⟩
  | .hbm, ⟨38, _⟩ => ⟨S16384x32x2, .i32⟩
  | .hbm, ⟨39, _⟩ => ⟨S_, .f32⟩
  | .hbm, ⟨40, _⟩ => ⟨S16384x32, .f32⟩
  | .hbm, ⟨41, _⟩ => ⟨S16384x64, .f32⟩
  | .hbm, ⟨42, _⟩ => ⟨S16384x64, .f32⟩
  | .hbm, ⟨43, _⟩ => ⟨S64x4096, .f32⟩
  | .hbm, ⟨44, _⟩ => ⟨S16384x4096, .f32⟩
  | .hbm, ⟨45, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S16384x4_S16384x4x1_0_1 : S16384x4.BroadcastsInDim S16384x4x1 (![0, 1] : Fin 2 → Fin S16384x4x1.rank)
  bcast_S_S16384x4x1 : S_.BroadcastsInDim S16384x4x1 (![] : Fin 0 → Fin S16384x4x1.rank)
  bcast_S8_S1x1x8_2 : S8.BroadcastsInDim S1x1x8 (![2] : Fin 1 → Fin S1x1x8.rank)
  bcast_S16384x4x1_S16384x4x8_0_1_2 : S16384x4x1.BroadcastsInDim S16384x4x8 (![0, 1, 2] : Fin 3 → Fin S16384x4x8.rank)
  bcast_S1x1x8_S16384x4x8_0_1_2 : S1x1x8.BroadcastsInDim S16384x4x8 (![0, 1, 2] : Fin 3 → Fin S16384x4x8.rank)
  shapeCasts_S16384x4x8_S16384x32 : S16384x4x8.ShapeCasts S16384x32
  bcast_S_S16384x64 : S_.BroadcastsInDim S16384x64 (![] : Fin 0 → Fin S16384x64.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x32 : S_.BroadcastsInDim S16384x32 (![] : Fin 0 → Fin S16384x32.rank)
  bcast_S16384x1_S16384x32_0_1 : S16384x1.BroadcastsInDim S16384x32 (![0, 1] : Fin 2 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  transposes_S4096x64_S64x4096_1_0 : S4096x64.Transposes [1, 0] S64x4096
  dot_S16384x4096_S4096x64_S16384x64_1_0_0_1_n_n_wf : DotDims.WF S16384x4096 S4096x64 S16384x64 [1] [0] [0] [1] [] []
  scatter_S16384x64_S16384x32x2_S16384x32_n_01_01_2_wf : ScatterDims.WF S16384x64 S16384x32x2 S16384x32 [] [0, 1] [0, 1] 2
  dot_S16384x64_S64x4096_S16384x4096_1_0_0_1_n_n_wf : DotDims.WF S16384x64 S64x4096 S16384x4096 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def scatter_S16384x64_S16384x32x2_S16384x32_n_01_01_2 : ScatterDims S16384x64 S16384x32x2 S16384x32 where
  updateWindowDims := []
  insertedWindowDims := [0, 1]
  scatterDimsToOperandDims := [0, 1]
  indexVectorDim := 2
  wf := scatter_S16384x64_S16384x32x2_S16384x32_n_01_01_2_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf

class Facts : Prop extends Facts₀ where

variable [Facts]
-- ==== Proof.Products.lean ====
/-
  The kernel's two kinds of matrix product, read at an index over the extended reals.

  Rotating a block of 256 rows into the 64-dimensional space contracts the 4096 embedding coordinates:
  entry (q, r) is the sum over k of x[q, k] · w[k, r]. Rotating back contracts the 64 rotated coordinates of
  BOTH operands (the second operand is used as its own transpose): entry (q, d) is the sum over r of y[q, r] · w[d, r].
  Each is the product into a zero accumulator, so only the sum is left.
-/
import proofs.«428351_j14680198218307_3_alg».proof.Proof.Gen.KernelIdeal
import Idealize.ShloMosaic.Lib.ValueIdx
import Idealize.ShloMosaic.PureOps.Ideal.Laws

noncomputable section

namespace Cert.Products

open Cert.KernelIdeal Cert.KernelIdeal.Gen Idealize.ShloMosaic Idealize.ShloMosaic.ValueIdx

/-! ## Into the rotated space: contraction over the embedding axis -/

theorem rot_lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem rot_lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rot_rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rot_rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- Entry (q, r) of a block rotated by `w`: the sum over the 4096 embedding coordinates. -/
theorem rotate_apply (x : FVec Ideal S256x4096 .f32) (w : FVec Ideal S4096x64 .f32) (q : Fin 256) (r : Fin 64) :
    matmul dot_S256x4096_S4096x64_S256x64_1_0_0_1_n_n none x w (constant S256x64 .f32 0x00000000#32) (ix2 q r)
      = ∑ k : Fin 4096, x (ix2 q k) * w (ix2 k r) := by
  simp only [matmul]
  rw [Ideal.matmul_constant_zero_apply, ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 q r) ((contrEquiv1 dot_S256x4096_S4096x64_S256x64_1_0_0_1_n_n 4096 rfl rfl).symm k) = ix2 q k := funext fun a => Fin.ext (by
    match a with
    | ⟨0, _⟩ => exact rot_lhs_0 _ _
    | ⟨1, _⟩ => exact (rot_lhs_1 _ _).trans hk)
  have er : dot_S256x4096_S4096x64_S256x64_1_0_0_1_n_n.rhsIdx (ix2 q r) ((contrEquiv1 dot_S256x4096_S4096x64_S256x64_1_0_0_1_n_n 4096 rfl rfl).symm k) = ix2 k r := funext fun a => Fin.ext (by
    match a with
    | ⟨0, _⟩ => exact (rot_rhs_0 _ _).trans hk
    | ⟨1, _⟩ => exact rot_rhs_1 _ _)
  rw [el, er]

/-! ## Back to the embedding space: contraction over the rotated axis of both operands -/

theorem back_lhs_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem back_lhs_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem back_rhs_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem back_rhs_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Entry (q, d) of a rotated block taken back by `w`'s transpose: the sum over the 64 rotated coordinates. -/
theorem rotate_back_apply (y : FVec Ideal S256x64 .f32) (w : FVec Ideal S4096x64 .f32) (q : Fin 256) (d : Fin 4096) :
    matmul dot_S256x64_S4096x64_S256x4096_1_1_0_0_n_n none y w (constant S256x4096 .f32 0x00000000#32) (ix2 q d)
      = ∑ r : Fin 64, y (ix2 q r) * w (ix2 d r) := by
  simp only [matmul]
  rw [Ideal.matmul_constant_zero_apply, ← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 q d) ((contrEquiv1 dot_S256x64_S4096x64_S256x4096_1_1_0_0_n_n 64 rfl rfl).symm k) = ix2 q k := funext fun a => Fin.ext (by
    match a with
    | ⟨0, _⟩ => exact back_lhs_0 _ _
    | ⟨1, _⟩ => exact (back_lhs_1 _ _).trans hk)
  have er : dot_S256x64_S4096x64_S256x4096_1_1_0_0_n_n.rhsIdx (ix2 q d) ((contrEquiv1 dot_S256x64_S4096x64_S256x4096_1_1_0_0_n_n 64 rfl rfl).symm k) = ix2 d k := funext fun a => Fin.ext (by
    match a with
    | ⟨0, _⟩ => exact back_rhs_0 _ _
    | ⟨1, _⟩ => exact (back_rhs_1 _ _).trans hk)
  rw [el, er]

end Cert.Products

end
-- ==== Proof.Selection.lean ====
/-
  The kernel's selection mask on one block of 256 rows, read at an index.

  The kernel numbers the 64 rotated coordinates along the second axis, takes each number's partition (its floor
  quotient by 8, computed on 32-bit words: the quotient rounded toward zero, corrected by one where the remainder
  is nonzero and the signs differ), compares the partition with each of the row's four partition ids and joins the
  four comparisons by "or". The joined bit, widened and converted, is the number one on a selected coordinate and
  zero elsewhere.
-/
import proofs.«428351_j14680198218307_3_alg».proof.Proof.Gen.KernelIdeal.Skeleton
import Idealize.ShloMosaic.Lib.ValueIdx
import Idealize.ShloMosaic.Lib.Pipeline.Value
import Idealize.ShloMosaic.Lib.StableHlo.Predicate

noncomputable section

namespace Cert.Selection

open Cert.KernelIdeal Cert.KernelIdeal.Gen Idealize.ShloMosaic Idealize.ShloMosaic.ValueIdx

/-! ## The partition of a rotated coordinate -/

/-- Floor division by 8 as the kernel spells it on a 32-bit word `c`. -/
def partWord (c : BitVec 32) : BitVec 32 :=
  Scalar.select
    (IntOp.andi
      (IntOp.cmpi .ne
        (IntOp.subi ((IntOp.cmpi .sgt c 0#32).setWidth 32) ((IntOp.cmpi .slt c 0#32).setWidth 32))
        (Scalar.subi (Scalar.extui (Scalar.cmpi .sgt 8#32 0#32)) (Scalar.extui (Scalar.cmpi .slt 8#32 0#32))))
      (IntOp.cmpi .ne (IntOp.remsi .vector c 8#32) 0#32))
    (IntOp.subi (IntOp.divsi .vector c 8#32) 1#32)
    (IntOp.divsi .vector c 8#32)

/-- On the 64 coordinates it is the quotient by 8 (checked coordinate by coordinate). -/
theorem partWord_small : ∀ r : Fin 64, partWord (BitVec.ofNat 32 r.val) = BitVec.ofNat 32 (r.val / 8) := by
  decide +kernel

/-- The kernel's partition vector at (q, r) is `r / 8`, whatever the row. -/
theorem part_apply (q : Fin 256) (r : Fin 64) : k0_pay3 (ix2 q r) = BitVec.ofNat 32 (r.val / 8) := by
  have h : iota .tc S256x64 32 [1] Facts₀.iota_S256x64_d1_w32 (ix2 q r) = BitVec.ofNat 32 r.val :=
    iota_single_apply .tc S256x64 32 1 Facts₀.iota_S256x64_d1_w32 (ix2 q r)
  show partWord (iota .tc S256x64 32 [1] Facts₀.iota_S256x64_d1_w32 (ix2 q r)) = _
  rw [h, partWord_small]

/-! ## One column of the partition ids, spread along the rotated axis -/

/-- Column `o` of the block's partition ids, broadcast over the 64 rotated coordinates, reads the id at (q, o). -/
theorem col_apply (x3 : IVec S256x4 32) (o : Nat) (ho : o < 4) (hs : S256x4.Slices ![0, o] S256x1)
    (hb : S256x1.Broadcasts S256x64) (q : Fin 256) (r : Fin 64) :
    broadcastTo S256x64 (extractStridedSlice S256x1 ![0, o] x3 hs) hb (ix2 q r) = x3 (ix2 q ⟨o, ho⟩) := by
  rw [broadcastTo_apply _ hb (ix2 q r) (ix2 q (0 : Fin 1)) (fun a => by
    match a with
    | ⟨0, _⟩ => show q.val = if (256 : Nat) = 1 then 0 else q.val; rw [if_neg (by decide)]
    | ⟨1, _⟩ => show 0 = if (1 : Nat) = 1 then 0 else r.val; rw [if_pos rfl])]
  exact extractStridedSlice_apply _ x3 hs (ix2 q (0 : Fin 1)) (ix2 q ⟨o, ho⟩) (fun a => by
    match a with
    | ⟨0, _⟩ => show q.val = 0 + q.val; omega
    | ⟨1, _⟩ => show o = o + 0; omega)

/-! ## The joined comparison -/

theorem or_bit (a b : BitVec 1) : IntOp.ori a b = 1#1 ↔ a = 1#1 ∨ b = 1#1 := by
  revert a b; decide

/-- A coordinate of row `q` of the block is selected when one of the row's four ids is its partition. -/
def Sel (x3 : IVec S256x4 32) (q : Fin 256) (r : Fin 64) : Prop :=
  ∃ n : Fin 4, x3 (ix2 q n) = BitVec.ofNat 32 (r.val / 8)

/-- The kernel's joined bit at (q, r), as a function of the four ids of row `q`. -/
def selBit (x3 : IVec S256x4 32) (q : Fin 256) (r : Fin 64) : BitVec 1 :=
  IntOp.ori (IntOp.ori (IntOp.ori (IntOp.ori 0#1
    (IntOp.cmpi .eq (BitVec.ofNat 32 (r.val / 8)) (x3 (ix2 q (0 : Fin 4)))))
    (IntOp.cmpi .eq (BitVec.ofNat 32 (r.val / 8)) (x3 (ix2 q (1 : Fin 4)))))
    (IntOp.cmpi .eq (BitVec.ofNat 32 (r.val / 8)) (x3 (ix2 q (2 : Fin 4)))))
    (IntOp.cmpi .eq (BitVec.ofNat 32 (r.val / 8)) (x3 (ix2 q (3 : Fin 4))))

theorem selBit_iff (x3 : IVec S256x4 32) (q : Fin 256) (r : Fin 64) : selBit x3 q r = 1#1 ↔ Sel x3 q r := by
  unfold selBit Sel
  simp only [or_bit, StableHlo.Predicate.cmpi_eq_iff]
  constructor
  · rintro ((((h | h) | h) | h) | h)
    · exact absurd h (by decide)
    · exact ⟨0, h.symm⟩
    · exact ⟨1, h.symm⟩
    · exact ⟨2, h.symm⟩
    · exact ⟨3, h.symm⟩
  · rintro ⟨n, hn⟩
    match n with
    | ⟨0, _⟩ => exact Or.inl (Or.inl (Or.inl (Or.inr hn.symm)))
    | ⟨1, _⟩ => exact Or.inl (Or.inl (Or.inr hn.symm))
    | ⟨2, _⟩ => exact Or.inl (Or.inr hn.symm)
    | ⟨3, _⟩ => exact Or.inr hn.symm

/-- The selection as a number. -/
def bmask (x3 : IVec S256x4 32) (q : Fin 256) (r : Fin 64) : EReal :=
  @ite _ (Sel x3 q r) (Classical.propDecidable _) 1 0

/-- A joined bit, widened to a word and converted, is one when set and zero when clear. -/
theorem bit_to_real (b : BitVec 1) (P : Prop) (h : b = 1#1 ↔ P) :
    FloatOps.sitofp (F := Ideal) .f32 (b.setWidth 32) = @ite _ P (Classical.propDecidable _) (1 : EReal) 0 := by
  by_cases hP : P
  · rw [if_pos hP, h.mpr hP]
    show (((((1#1 : BitVec 1).setWidth 32).toInt : ℝ)) : EReal) = 1
    have : ((1#1 : BitVec 1).setWidth 32).toInt = 1 := by decide
    rw [this]; norm_num
  · rw [if_neg hP]
    have hb : b = 0#1 := eq_zero_of_ne_one (fun hb => hP (h.mp hb))
    rw [hb]
    show (((((0#1 : BitVec 1).setWidth 32).toInt : ℝ)) : EReal) = 0
    have : ((0#1 : BitVec 1).setWidth 32).toInt = 0 := by decide
    rw [this]; norm_num

end Cert.Selection

end
-- ==== Proof.BlockValue.lean ====
/-
  What one grid point stores, entry by entry, as a function of the blocks it loaded.

  For a block `x0` of base rows, the matching block `x1` of source rows, the whole rotation `x2` and the block
  `x3` of partition ids, entry (q, d) of the stored block is
    x0[q, d] + Σ_r ( Σ_k x1[q, k]·x2[k, r] − Σ_k x0[q, k]·x2[k, r] ) · mask(q, r) · x2[d, r],
  the mask being one on the selected rotated coordinates of row q and zero elsewhere.
-/
import proofs.«428351_j14680198218307_3_alg».proof.Proof.Products
import proofs.«428351_j14680198218307_3_alg».proof.Proof.Selection

noncomputable section

namespace Cert.BlockValue

open Cert.KernelIdeal Cert.KernelIdeal.Gen Idealize.ShloMosaic Idealize.ShloMosaic.ValueIdx Cert.Products Cert.Selection

/-- The difference of the two rotated blocks at (q, r). -/
theorem diff_apply (x0 x1 : FVec Ideal S256x4096 .f32) (x2 : FVec Ideal S4096x64 .f32) (q : Fin 256) (r : Fin 64) :
    k0_pay2 (F := Ideal) x0 x1 x2 (ix2 q r)
      = (∑ k : Fin 4096, x1 (ix2 q k) * x2 (ix2 k r)) - (∑ k : Fin 4096, x0 (ix2 q k) * x2 (ix2 k r)) := by
  unfold k0_pay2
  show matmul dot_S256x4096_S4096x64_S256x64_1_0_0_1_n_n none x1 x2 (constant S256x64 .f32 0x00000000#32) (ix2 q r)
      - matmul dot_S256x4096_S4096x64_S256x64_1_0_0_1_n_n none x0 x2 (constant S256x64 .f32 0x00000000#32) (ix2 q r) = _
  rw [rotate_apply, rotate_apply]

/-- The joined comparison the store's payload uses, at (q, r), is the bit of the row's four ids. -/
theorem joined_apply (x3 : IVec S256x4 32) (q : Fin 256) (r : Fin 64) :
    ori (ori (k0_pay4 (F := Ideal) x3)
        (cmpi .eq k0_pay3 (broadcastTo S256x64 (extractStridedSlice S256x1 ![0, 2] x3 Facts₀.slices_S256x4_o0_2_S256x1) Facts₀.broadcasts_S256x1_S256x64)))
        (cmpi .eq k0_pay3 (broadcastTo S256x64 (extractStridedSlice S256x1 ![0, 3] x3 Facts₀.slices_S256x4_o0_3_S256x1) Facts₀.broadcasts_S256x1_S256x64))
      (ix2 q r) = selBit x3 q r := by
  unfold k0_pay4
  show IntOp.ori (IntOp.ori (IntOp.ori (IntOp.ori 0#1
      (IntOp.cmpi .eq (k0_pay3 (ix2 q r)) (broadcastTo S256x64 (extractStridedSlice S256x1 ![0, 0] x3 Facts₀.slices_S256x4_o0_0_S256x1) Facts₀.broadcasts_S256x1_S256x64 (ix2 q r))))
      (IntOp.cmpi .eq (k0_pay3 (ix2 q r)) (broadcastTo S256x64 (extractStridedSlice S256x1 ![0, 1] x3 Facts₀.slices_S256x4_o0_1_S256x1) Facts₀.broadcasts_S256x1_S256x64 (ix2 q r))))
      (IntOp.cmpi .eq (k0_pay3 (ix2 q r)) (broadcastTo S256x64 (extractStridedSlice S256x1 ![0, 2] x3 Facts₀.slices_S256x4_o0_2_S256x1) Facts₀.broadcasts_S256x1_S256x64 (ix2 q r))))
      (IntOp.cmpi .eq (k0_pay3 (ix2 q r)) (broadcastTo S256x64 (extractStridedSlice S256x1 ![0, 3] x3 Facts₀.slices_S256x4_o0_3_S256x1) Facts₀.broadcasts_S256x1_S256x64 (ix2 q r))) = _
  rw [part_apply, col_apply x3 0 (by decide), col_apply x3 1 (by decide), col_apply x3 2 (by decide), col_apply x3 3 (by decide)]
  rfl

/-- Entry (q, d) of the stored block. -/
theorem stored_apply (x0 x1 : FVec Ideal S256x4096 .f32) (x2 : FVec Ideal S4096x64 .f32) (x3 : IVec S256x4 32)
    (q : Fin 256) (d : Fin 4096) :
    k0_pay1 (F := Ideal) x0 x2 (k0_pay2 (F := Ideal) x0 x1 x2) x3 k0_pay3 (k0_pay4 (F := Ideal) x3) (ix2 q d)
      = x0 (ix2 q d) + ∑ r : Fin 64,
          ((∑ k : Fin 4096, x1 (ix2 q k) * x2 (ix2 k r)) - (∑ k : Fin 4096, x0 (ix2 q k) * x2 (ix2 k r)))
            * bmask x3 q r * x2 (ix2 d r) := by
  unfold k0_pay1
  refine congrArg (x0 (ix2 q d) + ·) ?_
  refine (rotate_back_apply _ x2 q d).trans ?_
  refine Finset.sum_congr rfl fun r _ => ?_
  refine congrArg (· * x2 (ix2 d r)) ?_
  show k0_pay2 (F := Ideal) x0 x1 x2 (ix2 q r) * FloatOps.sitofp (F := Ideal) .f32 ((_ : BitVec 1).setWidth 32) = _
  rw [diff_apply, joined_apply, bit_to_real _ _ (selBit_iff x3 q r)]
  rfl

end Cert.BlockValue

end
-- ==== Proof.Spec.lean ====
/-
  The function both programs compute, stated once over the argument arrays.

  Row `p` of `base` and of `source` is rotated into a 64-dimensional space by `W` (a sum over the 4096 embedding
  coordinates). The 64 rotated coordinates fall into eight partitions of eight consecutive coordinates; row `p`
  carries four partition ids, and a rotated coordinate `r` is SELECTED when one of them is `r / 8`. The difference
  of the two rotated rows, kept on the selected coordinates and zeroed elsewhere, is rotated back by `W`'s
  transpose (a sum over the 64 coordinates) and added to the base row.
-/
import Idealize.ShloMosaic.PureOps.Ideal
import Idealize.ShloMosaic.Lib.ValueIdx

noncomputable section

namespace Cert.Spec

open Idealize.ShloMosaic Idealize.ShloMosaic.ValueIdx

/-- [batch, embedding], [embedding, rank] and [batch, selected partitions]. -/
abbrev SBD : Shape := ⟨2, ![16384, 4096]⟩
abbrev SDR : Shape := ⟨2, ![4096, 64]⟩
abbrev SBN : Shape := ⟨2, ![16384, 4]⟩

/-- Rotated coordinate `r` of row `p` is selected: one of the row's four partition ids is the partition `r / 8`. -/
def Selected (s : IVec SBN 32) (p : Fin 16384) (r : Fin 64) : Prop :=
  ∃ n : Fin 4, s (ix2 p n) = BitVec.ofNat 32 (r.val / 8)

/-- The selection as a number: one on a selected coordinate, zero elsewhere. -/
def mask (s : IVec SBN 32) (p : Fin 16384) (r : Fin 64) : EReal :=
  @ite _ (Selected s p r) (Classical.propDecidable _) 1 0

theorem mask_of_sel {s : IVec SBN 32} {p : Fin 16384} {r : Fin 64} (h : Selected s p r) : mask s p r = 1 := by
  unfold mask; exact if_pos h

theorem mask_of_not {s : IVec SBN 32} {p : Fin 16384} {r : Fin 64} (h : ¬Selected s p r) : mask s p r = 0 := by
  unfold mask; exact if_neg h

/-- Row `p` of `x` rotated by `w`, at rotated coordinate `r`. -/
def rot (x : SBD.Idx → EReal) (w : SDR.Idx → EReal) (p : Fin 16384) (r : Fin 64) : EReal :=
  ∑ k : Fin 4096, x (ix2 p k) * w (ix2 k r)

/-- The result: the base row plus the masked difference of the rotated rows, rotated back. -/
def G (b src : SBD.Idx → EReal) (w : SDR.Idx → EReal) (s : IVec SBN 32) : SBD.Idx → EReal :=
  fun i => b i + ∑ r : Fin 64, (rot src w (i 0) r - rot b w (i 0) r) * mask s (i 0) r * w (ix2 (i 1) r)

end Cert.Spec

end
-- ==== Proof.ArrayValue.lean ====
/-
  From what each grid point stores to the whole result array.

  Grid point `t` (of 64) works on rows 256·t … 256·t + 255: its base, source and partition-id blocks are those rows
  of the three argument arrays, the rotation is staged whole, and the block it writes back is those rows of the
  result. Entry by entry the stored block is the specification `Cert.Spec.G` of the argument arrays read at row
  256·t + q; the 64 row blocks cover the array, so after the run the result array is `G` of the arguments.
-/
import proofs.«428351_j14680198218307_3_alg».proof.Proof.Gen.KernelIdeal.Value
import proofs.«428351_j14680198218307_3_alg».proof.Proof.BlockValue
import proofs.«428351_j14680198218307_3_alg».proof.Proof.Spec

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows sit at block (t, 0), the rotation at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `q` of point `t`'s blocks is row 256·t + q of the arrays. -/
def row (t : Fin cfg0.N) (q : Fin 256) : Fin 16384 :=
  ⟨t.val * 256 + q.val, by have h : t.val < 64 := t.isLt; have := q.isLt; omega⟩

/-! ## The argument arrays and the point's blocks, at their literal types -/

abbrev baseArr (c : Dev nD) : FVec Ideal S16384x4096 .f32 := V m c main_arg0
abbrev srcArr (c : Dev nD) : FVec Ideal S16384x4096 .f32 := V m c main_arg1
abbrev rotArr (c : Dev nD) : FVec Ideal S4096x64 .f32 := V m c main_arg2
abbrev idArr (c : Dev nD) : IVec S16384x4 32 := V m c main_arg3

abbrev baseBlk (c : Dev nD) (t : Fin cfg0.N) : FVec Ideal S256x4096 .f32 := iblk m c 0 t
abbrev srcBlk (c : Dev nD) (t : Fin cfg0.N) : FVec Ideal S256x4096 .f32 := iblk m c 1 t
abbrev rotBlk (c : Dev nD) (t : Fin cfg0.N) : FVec Ideal S4096x64 .f32 := iblk m c 2 t
abbrev idBlk (c : Dev nD) (t : Fin cfg0.N) : IVec S256x4 32 := iblk m c 3 t

theorem baseBlk_apply (c : Dev nD) (t : Fin cfg0.N) (q : Fin 256) (k : Fin 4096) :
    baseBlk m c t (ix2 q k) = baseArr m c (ix2 (row t q) k) := by
  obtain ⟨e0, e1, -⟩ := idx_facts t
  show V m c main_arg0 (((cfg0.win 0).blk t).view.emb (ix2 q k)) = V m c main_arg0 (ix2 (row t q) k)
  refine congrArg _ (funext fun a => Fin.ext ?_)
  match a with
  | ⟨0, _⟩ => show win0_0.index t (0 : Fin 2) * 256 + 1 * q.val = t.val * 256 + q.val; rw [e0]; omega
  | ⟨1, _⟩ => show win0_0.index t (1 : Fin 2) * 4096 + 1 * k.val = k.val; rw [e1]; omega

theorem srcBlk_apply (c : Dev nD) (t : Fin cfg0.N) (q : Fin 256) (k : Fin 4096) :
    srcBlk m c t (ix2 q k) = srcArr m c (ix2 (row t q) k) := by
  obtain ⟨-, -, e0, e1, -⟩ := idx_facts t
  show V m c main_arg1 (((cfg0.win 1).blk t).view.emb (ix2 q k)) = V m c main_arg1 (ix2 (row t q) k)
  refine congrArg _ (funext fun a => Fin.ext ?_)
  match a with
  | ⟨0, _⟩ => show win0_1.index t (0 : Fin 2) * 256 + 1 * q.val = t.val * 256 + q.val; rw [e0]; omega
  | ⟨1, _⟩ => show win0_1.index t (1 : Fin 2) * 4096 + 1 * k.val = k.val; rw [e1]; omega

theorem rotBlk_apply (c : Dev nD) (t : Fin cfg0.N) (k : Fin 4096) (r : Fin 64) :
    rotBlk m c t (ix2 k r) = rotArr m c (ix2 k r) := by
  obtain ⟨-, -, -, -, e0, e1, -⟩ := idx_facts t
  show V m c main_arg2 (((cfg0.win 2).blk t).view.emb (ix2 k r)) = V m c main_arg2 (ix2 k r)
  refine congrArg _ (funext fun a => Fin.ext ?_)
  match a with
  | ⟨0, _⟩ => show win0_2.index t (0 : Fin 2) * 4096 + 1 * k.val = k.val; rw [e0]; omega
  | ⟨1, _⟩ => show win0_2.index t (1 : Fin 2) * 64 + 1 * r.val = r.val; rw [e1]; omega

theorem idBlk_apply (c : Dev nD) (t : Fin cfg0.N) (q : Fin 256) (n : Fin 4) :
    idBlk m c t (ix2 q n) = idArr m c (ix2 (row t q) n) := by
  obtain ⟨-, -, -, -, -, -, e0, e1, -⟩ := idx_facts t
  show V m c main_arg3 (((cfg0.win 3).blk t).view.emb (ix2 q n)) = V m c main_arg3 (ix2 (row t q) n)
  refine congrArg _ (funext fun a => Fin.ext ?_)
  match a with
  | ⟨0, _⟩ => show win0_3.index t (0 : Fin 2) * 256 + 1 * q.val = t.val * 256 + q.val; rw [e0]; omega
  | ⟨1, _⟩ => show win0_3.index t (1 : Fin 2) * 4 + 1 * n.val = n.val; rw [e1]; omega

/-- The block's selection of row q is the array's selection of row 256·t + q. -/
theorem bmask_eq (c : Dev nD) (t : Fin cfg0.N) (q : Fin 256) (r : Fin 64) :
    Cert.Selection.bmask (idBlk m c t) q r = Cert.Spec.mask (idArr m c) (row t q) r := by
  have hiff : Cert.Selection.Sel (idBlk m c t) q r ↔ Cert.Spec.Selected (idArr m c) (row t q) r := by
    unfold Cert.Selection.Sel Cert.Spec.Selected
    exact exists_congr fun n => by rw [idBlk_apply]
  by_cases hs : Cert.Spec.Selected (idArr m c) (row t q) r
  · rw [Cert.Spec.mask_of_sel hs]; unfold Cert.Selection.bmask; exact if_pos (hiff.mpr hs)
  · rw [Cert.Spec.mask_of_not hs]; unfold Cert.Selection.bmask; exact if_neg (fun h' => hs (hiff.mp h'))

/-- The result as a function of the argument arrays. -/
abbrev result (c : Dev nD) : FVec Ideal S16384x4096 .f32 :=
  Cert.Spec.G (baseArr m c) (srcArr m c) (rotArr m c) (idArr m c)

/-- WHAT POINT `t` WRITES BACK is rows 256·t … 256·t + 255 of the specification of the argument arrays. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S256x4096) hz, View.ld_unit_zero (S := S4096x64) hz, View.ld_unit_zero (S := S256x4) hz]
  obtain ⟨-, -, -, -, -, -, -, -, e0, e1⟩ := idx_facts t
  funext j
  obtain ⟨q, d, rfl⟩ : ∃ (q : Fin 256) (d : Fin 4096), j = ix2 q d := ⟨j 0, j 1, eq_ix2 j⟩
  have hemb : ((cfg0.win 4).blk t).view.emb (ix2 q d) = ix2 (row t q) d := by
    refine funext fun a => Fin.ext ?_
    match a with
    | ⟨0, _⟩ => show win0_4.index t (0 : Fin 2) * 256 + 1 * q.val = t.val * 256 + q.val; rw [e0]; omega
    | ⟨1, _⟩ => show win0_4.index t (1 : Fin 2) * 4096 + 1 * d.val = d.val; rw [e1]; omega
  show k0_pay1 (F := Ideal) (baseBlk m c t) (rotBlk m c t) (k0_pay2 (F := Ideal) (baseBlk m c t) (srcBlk m c t) (rotBlk m c t)) (idBlk m c t) k0_pay3 (k0_pay4 (F := Ideal) (idBlk m c t)) (ix2 q d)
      = result m c (((cfg0.win 4).blk t).view.emb (ix2 q d))
  rw [hemb]
  refine (Cert.BlockValue.stored_apply (baseBlk m c t) (srcBlk m c t) (rotBlk m c t) (idBlk m c t) q d).trans ?_
  show _ = baseArr m c (ix2 (row t q) d) + ∑ r : Fin 64,
      ((∑ k : Fin 4096, srcArr m c (ix2 (row t q) k) * rotArr m c (ix2 k r)) - (∑ k : Fin 4096, baseArr m c (ix2 (row t q) k) * rotArr m c (ix2 k r)))
        * Cert.Spec.mask (idArr m c) (row t q) r * rotArr m c (ix2 d r)
  simp only [baseBlk_apply, srcBlk_apply, rotBlk_apply, bmask_eq]

/-- An index of the array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v0).slice (win0_4.rect t)).set ↔ _
  rw [View.set_slice_whole, Rect.mem_set_unit]
  exact Iff.rfl

/-- Every row lies in the block of the point numbered by its quotient by 256. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  let t : Fin cfg0.N := ⟨(i 0).val / 256, by show (i 0).val / 256 < 64; omega⟩
  obtain ⟨-, -, -, -, -, -, -, -, e0, e1⟩ := idx_facts t
  have ht : t.val = (i 0).val / 256 := rfl
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- THE ARRAY after the run is the specification of the argument arrays. -/
theorem final (c : Dev nD) : (dats m 0 c).arrAt 4 cfg0.N = result m c :=
  (dats m 0 c).arrAt_eq_of_cover 4 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.ArrayValue

end
-- ==== Proof.IdRange.lean ====
/-
  The printed precondition is a conjunction of five "all entries satisfy ..." tests; the last two say that every
  partition id, read as a signed 32-bit word, is at least 0 and less than 8. A conjunction of one-bit words is 1
  only if every conjunct is 1, and a reduction by "and" over all axes is 1 only if every entry is 1; at an index
  the two comparisons against a broadcast scalar then read `0 ≤ toInt` and `toInt < 8`, and a signed word in
  [0, 8) has the same unsigned value, which is therefore below 8.
-/
import proofs.«428351_j14680198218307_3_alg».proof.Pre_finite_inputs
import proofs.«428351_j14680198218307_3_alg».proof.Proof.Gen.Pre_finite_inputs
import Idealize.ShloMosaic.Lib.ReduceAll
import Idealize.ShloMosaic.Lib.StableHlo.Predicate
import Idealize.ShloMosaic.Lib.ValueIdx

namespace Cert.IdRange

open Idealize.ShloMosaic Idealize.ShloMosaic.ValueIdx Cert.Pre_finite_inputs

/-- The scalar shape has a single index. -/
instance : Subsingleton S_.Idx := ⟨fun a b => funext fun d => d.elim0⟩

/-- A 32-bit word whose signed value lies in [0, 8) has unsigned value below 8. -/
theorem toNat_lt_eight_of_toInt (w : BitVec 32) (h0 : (0 : Int) ≤ w.toInt) (h8 : w.toInt < 8) : w.toNat < 8 := by
  rw [BitVec.toInt_eq_toNat_cond] at h0 h8
  split at h0 <;> omega

/-- Under the printed precondition every partition id is one of 0, ..., 7. -/
theorem ids_in_range {F : FTy → Type} [FloatOps F] [Cert.Pre_finite_inputs.Facts]
    (a0 a1 : FVec F Cert.Pre_finite_inputs.S16384x4096 .f32) (a2 : FVec F Cert.Pre_finite_inputs.S4096x64 .f32)
    (a3 : IVec Cert.Pre_finite_inputs.S16384x4 32)
    (h : Cert.Pre_finite_inputs.fn (F := F) a0 a1 a2 a3 = fun _ => 1#1) :
    ∀ i : Cert.Pre_finite_inputs.S16384x4.Idx, (a3 i).toNat < 8 := by
  intro i
  have h1 := congrFun h ix0
  dsimp only [fn, fn_part1, andi] at h1
  obtain ⟨h17, h20⟩ := IntOp.andi_eq_one.1 h1
  obtain ⟨_, h16⟩ := IntOp.andi_eq_one.1 h17
  have hge := Host.reduce_andi_all _ _ _ _ _ h16 i
  have hlt := Host.reduce_andi_all _ _ _ _ _ h20 i
  dsimp only [cmpi] at hge hlt
  rw [StableHlo.Predicate.bcast_scalar _ Facts.h_S_] at hge hlt
  dsimp only [constantI] at hge hlt
  rw [IntOp.cmpi_sge] at hge
  rw [IntOp.cmpi_slt] at hlt
  exact toNat_lt_eight_of_toInt _ (by simpa using hge) (by simpa using hlt)

end Cert.IdRange
-- ==== Proof.ScatterSet.lean ====
/-
  Scattering one constant value.

  A scatter whose combining function keeps the update (`fun _ b => b`) and whose updates are all one value `v`
  writes `v` at every operand position some update index lands on, and leaves every other position as it was.
  The order in which the update indices are visited does not matter here, since every write stores the same
  value: a position holds `v` exactly when at least one update index lands on it.
-/
import Idealize.ShloMosaic.PureOps.ShapeOps

namespace Cert.ScatterSet

open Idealize.ShloMosaic

variable {s si u : Shape} {α : Type} {w : Nat}

/-- One step of the scatter's fold: update index number `n` (row-major) overwrites the position it lands on. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

open Classical in
/-- Folding the steps over any list of update indices: position `i'` ends at `v` when one of the listed indices
    lands on it, and keeps its starting value otherwise. By induction on the list, for every starting array: the
    head either lands on `i'` (then the array after it holds `v` there, which is what the tail keeps or rewrites
    to `v`) or does not (then the array after it agrees with the one before it at `i'`). -/
theorem foldl_step_eq (d : ScatterDims s si u) (idx : IVec si w) (upd : u.Idx → α) (v : α)
    (hv : ∀ j, upd j = v) (i' : s.Idx) (l : List (Fin u.numel)) :
    ∀ r : s.Idx → α, l.foldl (step d idx upd) r i' =
      if (∃ n ∈ l, d.resultIdx? (u.rowMajor.symm n) idx = some i') then v else r i' := by
  induction l with
  | nil => intro r; simp
  | cons n l ih =>
    intro r
    rw [List.foldl_cons, ih]
    by_cases hl : ∃ m ∈ l, d.resultIdx? (u.rowMajor.symm m) idx = some i'
    · rw [if_pos hl, if_pos]
      obtain ⟨m, hm, e⟩ := hl
      exact ⟨m, List.mem_cons_of_mem _ hm, e⟩
    · rw [if_neg hl]
      by_cases hn : d.resultIdx? (u.rowMajor.symm n) idx = some i'
      · rw [if_pos ⟨n, List.mem_cons_self, hn⟩]
        unfold step
        rw [hn]
        simp [hv]
      · rw [if_neg]
        · unfold step
          cases h : d.resultIdx? (u.rowMajor.symm n) idx with
          | none => rfl
          | some i =>
            show (if i' = i then upd (u.rowMajor.symm n) else r i') = r i'
            rw [if_neg]
            rintro rfl
            exact hn h
        · rintro ⟨m, hm, e⟩
          rcases List.mem_cons.1 hm with rfl | hm
          · exact hn e
          · exact hl ⟨m, hm, e⟩

/-- The scatter's fold is the fold of `step` over every update index. -/
theorem scatter_eq_foldl (d : ScatterDims s si u) (x : s.Idx → α) (idx : IVec si w) (upd : u.Idx → α) :
    Host.scatter d (fun _ b => b) x idx upd = (List.finRange u.numel).foldl (step d idx upd) x := rfl

/-- A position some update index lands on holds the common value of the updates. -/
theorem scatter_of_hit (d : ScatterDims s si u) (x : s.Idx → α) (idx : IVec si w) (upd : u.Idx → α) (v : α)
    (hv : ∀ j, upd j = v) (i' : s.Idx) (hit : ∃ j : u.Idx, d.resultIdx? j idx = some i') :
    Host.scatter d (fun _ b => b) x idx upd i' = v := by
  rw [scatter_eq_foldl, foldl_step_eq d idx upd v hv i', if_pos]
  obtain ⟨j, hj⟩ := hit
  exact ⟨u.rowMajor j, List.mem_finRange _, by rw [Equiv.symm_apply_apply]; exact hj⟩

/-- A position no update index lands on keeps the operand's value. -/
theorem scatter_of_miss (d : ScatterDims s si u) (x : s.Idx → α) (idx : IVec si w) (upd : u.Idx → α) (v : α)
    (hv : ∀ j, upd j = v) (i' : s.Idx) (miss : ¬∃ j : u.Idx, d.resultIdx? j idx = some i') :
    Host.scatter d (fun _ b => b) x idx upd i' = x i' := by
  rw [scatter_eq_foldl, foldl_step_eq d idx upd v hv i', if_neg]
  rintro ⟨n, _, hn⟩
  exact miss ⟨_, hn⟩

end Cert.ScatterSet
-- ==== Proof.RefMask.lean ====
/-
  The reference's selection mask, read at an index.

  The reference builds `mask = zeros((B, 64)).at[arange(B)[:, None], idx].set(1.0)` with
  `idx[b, 8 n + k] = s[b, n] * 8 + k` (`n < 4`, `k < 8`): a scatter of the constant one into an array of zeros, at the
  positions (row, column) listed by an index array of shape [B, 32, 2]. When every partition id `s[b, n]` lies in
  `[0, 8)`, the column `s[b, n] * 8 + k` lies in `[0, 64)`: the 32-bit product and sum do not wrap, the index is
  non-negative (so the normalisation `select(i < 0, i + size, i)` of a negative index leaves it alone, for the row number
  likewise), and every update lands inside the array. A scatter of one constant value holds that value exactly at the
  positions some update lands on, whatever the order of the writes. Position `(p, r)` is the landing place of update
  `(p, q)` exactly when `s[p, q / 8] * 8 + q % 8 = r`, that is when `s[p, q / 8] = r / 8` and `q % 8 = r % 8`; such a `q`
  exists exactly when one of the four partition ids of row `p` is `r / 8`, which is the specification's `Selected`.
-/
import proofs.«428351_j14680198218307_3_alg».proof.Proof.Gen.ReferenceIdeal.Read
import proofs.«428351_j14680198218307_3_alg».proof.Proof.Spec
import Idealize.ShloMosaic.Lib.StableHlo.Predicate
import Idealize.ShloMosaic.Lib.Pipeline.Value
import Idealize.ShloMosaic.Lib.IdealHost
import proofs.«428351_j14680198218307_3_alg».proof.Proof.ScatterSet

noncomputable section

namespace Cert.RefMask

open Idealize.ShloMosaic Idealize.ShloMosaic.ValueIdx Cert.ReferenceIdeal Cert.ReferenceIdeal.Read
open Idealize.ShloMosaic.StableHlo.Predicate

variable {F : FTy → Type} [FloatOps F]

/-- `select(a < 0, b, a)` is `a` for a word `a` that is non-negative read signed. -/
theorem select_of_not_slt {a : BitVec 32} (ha : a.toNat < 2 ^ 31) (b : BitVec 32) :
    Scalar.select (IntOp.cmpi .slt a 0#32) b a = a := by
  have h : ¬ IntOp.cmpi .slt a 0#32 = 1#1 := by
    rw [slt_iff_toNat ha (by decide)]; simp
  unfold Scalar.select
  exact if_neg h

/-- The row component of the index vector of update `(p, q)`: the row number `p` (an iota, broadcast along the
    columns; it is non-negative, so its normalisation is the identity). -/
theorem row_apply (p : Fin 16384) (q : Fin 32) :
    val_main_v26 (F := F) (ix3 p q (0 : Fin 1)) = BitVec.ofNat 32 p.val := by
  rw [val_main_v26_apply, val_main_v25_apply, val_main_v19_apply, val_main_v16_apply, val_main_v15_apply, val_main_c_0_apply, val_main_v14_apply, val_main_v13_apply]
  refine select_of_not_slt ?_ _
  rw [BitVec.toNat_ofNat]
  have : p.val < 16384 := p.isLt
  show p.val % 2 ^ 32 < 2 ^ 31
  omega

/-- The word `a * 8 + k` for a small `a` and `k`. -/
theorem mul8_add {a : BitVec 32} (ha : a.toNat < 8) (k : Nat) (hk : k < 8) :
    IntOp.addi (IntOp.muli a 8#32) (BitVec.ofNat 32 k) = BitVec.ofNat 32 (a.toNat * 8 + k) := by
  unfold IntOp.addi IntOp.muli
  apply BitVec.eq_of_toNat_eq
  simp only [BitVec.toNat_add, BitVec.toNat_mul, BitVec.toNat_ofNat]
  omega

/-- The unnormalised column component at `(p, q)`: partition id `q / 8` of row `p`, times eight, plus `q % 8`
    (the [B, 4, 8] array `s[b, n] * 8 + k` reshaped to [B, 32]: flat position `q = 8 n + k`). -/
theorem v11_apply (x3 : IVec S16384x4 32) (h : ∀ i : S16384x4.Idx, (x3 i).toNat < 8) (p : Fin 16384) (q : Fin 32) :
    val_main_v11 (F := F) x3 (ix2 p q) =
      BitVec.ofNat 32 ((x3 (ix2 p ⟨q.val / 8, by have := q.isLt; omega⟩)).toNat * 8 + q.val % 8) := by
  rw [val_main_v11_apply, val_main_v10_apply, val_main_v8_apply, val_main_v5_apply, val_main_v3_apply,
    val_main_v4_apply, val_main_c_apply, val_main_v9_apply, val_main_v7_apply, val_main_v6_apply]
  have hp : p.val < 16384 := p.isLt
  have hq : q.val < 32 := q.isLt
  have e1 : idx_main_v3 (idx_main_v8 (idx_main_v11 (ix2 p q))) = ix2 p ⟨q.val / 8, by omega⟩ := by
    funext a
    refine Fin.ext ?_
    match a with
    | ⟨0, _⟩ => show (p.val * 32 + q.val) / 32 = p.val; omega
    | ⟨1, _⟩ => show (p.val * 32 + q.val) / 8 % 4 = q.val / 8; omega
  have e2 : ((idx_main_v7 (idx_main_v9 (idx_main_v11 (ix2 p q)))) 0).val = q.val % 8 := by
    show (p.val * 32 + q.val) % 8 = q.val % 8; omega
  rw [e1, e2]
  exact mul8_add (h _) _ (by omega)

/-- The column number an update index `(p, q)` writes to. -/
def col (x3 : IVec S16384x4 32) (p : Fin 16384) (q : Fin 32) : Nat :=
  (x3 (ix2 p ⟨q.val / 8, by have := q.isLt; omega⟩)).toNat * 8 + q.val % 8

theorem col_lt (x3 : IVec S16384x4 32) (h : ∀ i : S16384x4.Idx, (x3 i).toNat < 8) (p : Fin 16384) (q : Fin 32) :
    col x3 p q < 64 := by
  unfold col
  have := h (ix2 p ⟨q.val / 8, by have := q.isLt; omega⟩)
  omega

/-- The column component of the index vector of update `(p, q)`: it is below 64, hence non-negative read signed, and
    its normalisation is the identity. -/
theorem colw_apply (x3 : IVec S16384x4 32) (h : ∀ i : S16384x4.Idx, (x3 i).toNat < 8) (p : Fin 16384) (q : Fin 32) :
    val_main_v27 (F := F) x3 (ix3 p q (0 : Fin 1)) = BitVec.ofNat 32 (col x3 p q) := by
  rw [val_main_v27_apply, val_main_v24_apply, val_main_v21_apply, val_main_v20_apply, val_main_c_2_apply]
  have e : idx_main_v27 (ix3 p q (0 : Fin 1)) = ix2 p q := by
    funext a
    match a with
    | ⟨0, _⟩ => rfl
    | ⟨1, _⟩ => rfl
  rw [e, v11_apply x3 h]
  refine select_of_not_slt ?_ _
  rw [BitVec.toNat_ofNat]
  have := col_lt x3 h p q
  unfold col at this
  omega

/-- The index array read at `(p, q, 0)`: the row number. -/
theorem idx_row (x3 : IVec S16384x4 32) (p : Fin 16384) (q : Fin 32) :
    val_main_v28 (F := F) x3 (ix3 p q (0 : Fin 2)) = BitVec.ofNat 32 p.val := by
  unfold val_main_v28
  exact (concatenate_pair_apply_left (t := S16384x32x2) (s₁ := S16384x32x1) (s₂ := S16384x32x1) 2 _ _ _
    (ix3 p q (0 : Fin 2)) rfl (ix3 p q (0 : Fin 1))
    (fun b => match b with | ⟨0, _⟩ => rfl | ⟨1, _⟩ => rfl | ⟨2, _⟩ => rfl)).trans (row_apply p q)

/-- The index array read at `(p, q, 1)`: the column number. -/
theorem idx_col (x3 : IVec S16384x4 32) (h : ∀ i : S16384x4.Idx, (x3 i).toNat < 8) (p : Fin 16384) (q : Fin 32) :
    val_main_v28 (F := F) x3 (ix3 p q (1 : Fin 2)) = BitVec.ofNat 32 (col x3 p q) := by
  unfold val_main_v28
  exact (concatenate_pair_apply_right (t := S16384x32x2) (s₁ := S16384x32x1) (s₂ := S16384x32x1) 2 _ _ _
    (ix3 p q (1 : Fin 2)) rfl rfl (ix3 p q (0 : Fin 1))
    (fun b => match b with | ⟨0, _⟩ => fun _ => rfl | ⟨1, _⟩ => fun _ => rfl | ⟨2, _⟩ => fun hb => absurd rfl hb)
    rfl).trans (colw_apply x3 h p q)

/-! ## The scatter's dimension numbers, read on the literal lists -/

/-- The scatter's dimension numbers: both operand axes are inserted window axes, the index vector (row, column) lies
    along the last axis of the index array. -/
abbrev D : ScatterDims S16384x64 S16384x32x2 S16384x32 := scatter_S16384x64_S16384x32x2_S16384x32_n_01_01_2

/-- The window's start on the row axis: component 0 of the index vector of update `j`, read signed. -/
theorem start0 (idx : IVec S16384x32x2 32) (j : S16384x32.Idx) :
    D.start j idx 0 = (idx (ix3 (j 0) (j 1) (0 : Fin 2))).toInt := by
  unfold ScatterDims.start
  rw [dif_pos (show (0 : Fin S16384x64.rank) ∈ D.scatterDimsToOperandDims by decide)]
  congr 2
  funext b
  refine Fin.ext ?_
  match b with
  | ⟨0, _⟩ => rfl
  | ⟨1, _⟩ => rfl
  | ⟨2, _⟩ => rfl

/-- The window's start on the column axis: component 1 of the index vector of update `j`, read signed. -/
theorem start1 (idx : IVec S16384x32x2 32) (j : S16384x32.Idx) :
    D.start j idx 1 = (idx (ix3 (j 0) (j 1) (1 : Fin 2))).toInt := by
  unfold ScatterDims.start
  rw [dif_pos (show (1 : Fin S16384x64.rank) ∈ D.scatterDimsToOperandDims by decide)]
  congr 2
  funext b
  refine Fin.ext ?_
  match b with
  | ⟨0, _⟩ => rfl
  | ⟨1, _⟩ => rfl
  | ⟨2, _⟩ => rfl

/-- Both operand axes are inserted window axes: the window coordinate is zero on each. -/
theorem window_zero (j : S16384x32.Idx) (a : Fin S16384x64.rank) : D.window j a = 0 := by
  unfold ScatterDims.window
  rw [dif_neg]
  have : D.sKept = [] := by decide
  rw [this]
  exact List.not_mem_nil

/-- Where update index `j = (p, q)` lands: row `p`, column `col p q`; always inside the operand. -/
theorem resultIdx_eq (x3 : IVec S16384x4 32) (h : ∀ i : S16384x4.Idx, (x3 i).toNat < 8) (j : S16384x32.Idx) :
    D.resultIdx? j (val_main_v28 (F := F) x3) = some (ix2 (j 0) ⟨col x3 (j 0) (j 1), col_lt x3 h _ _⟩) := by
  have h0 : (j 0).val < 16384 := (j 0).isLt
  have hc := col_lt x3 h (j 0) (j 1)
  have hs0 : D.start j (val_main_v28 (F := F) x3) 0 = ((j 0).val : Int) := by
    rw [start0]
    exact (congrArg BitVec.toInt (idx_row (F := F) x3 (j 0) (j 1))).trans (toInt_ofNat_small _ (by omega))
  have hs1 : D.start j (val_main_v28 (F := F) x3) 1 = (col x3 (j 0) (j 1) : Int) := by
    rw [start1]
    exact (congrArg BitVec.toInt (idx_col (F := F) x3 h (j 0) (j 1))).trans (toInt_ofNat_small _ (by omega))
  unfold ScatterDims.resultIdx?
  rw [dif_pos]
  · congr 1
    funext a
    refine Fin.ext ?_
    match a with
    | ⟨0, _⟩ =>
      show (D.start j (val_main_v28 (F := F) x3) 0 + D.window j 0).toNat = (j 0).val
      rw [hs0, window_zero]; simp
    | ⟨1, _⟩ =>
      show (D.start j (val_main_v28 (F := F) x3) 1 + D.window j 1).toNat = col x3 (j 0) (j 1)
      rw [hs1, window_zero]; simp
  · intro a
    rw [window_zero]
    match a with
    | ⟨0, _⟩ =>
      show 0 ≤ D.start j (val_main_v28 (F := F) x3) 0 + ((0 : Nat) : Int) ∧
        D.start j (val_main_v28 (F := F) x3) 0 + ((0 : Nat) : Int) < ((16384 : Nat) : Int)
      rw [hs0]; omega
    | ⟨1, _⟩ =>
      show 0 ≤ D.start j (val_main_v28 (F := F) x3) 1 + ((0 : Nat) : Int) ∧
        D.start j (val_main_v28 (F := F) x3) 1 + ((0 : Nat) : Int) < ((64 : Nat) : Int)
      rw [hs1]; omega

/-- A selected coordinate is some update's column. -/
theorem col_of_sel (x3 : IVec S16384x4 32) (p : Fin 16384) (r : Fin 64) (n : Fin 4)
    (hn : x3 (ix2 p n) = BitVec.ofNat 32 (r.val / 8)) :
    col x3 p ⟨8 * n.val + r.val % 8, by have := n.isLt; omega⟩ = r.val := by
  have hr : r.val < 64 := r.isLt
  have key : ∀ m : Fin 4, m.val = n.val → (x3 (ix2 p m)).toNat = r.val / 8 := by
    intro m hm
    have : m = n := Fin.ext hm
    subst this
    rw [hn, BitVec.toNat_ofNat]
    omega
  have k := key ⟨(8 * n.val + r.val % 8) / 8, by have := n.isLt; omega⟩ (by show (8 * n.val + r.val % 8) / 8 = n.val; omega)
  show (x3 (ix2 p ⟨(8 * n.val + r.val % 8) / 8, _⟩)).toNat * 8 + (8 * n.val + r.val % 8) % 8 = r.val
  rw [k]
  omega

/-- An update's column is a selected coordinate. -/
theorem sel_of_col (x3 : IVec S16384x4 32) (h : ∀ i : S16384x4.Idx, (x3 i).toNat < 8) (p : Fin 16384) (q : Fin 32)
    (r : Fin 64) (hc : col x3 p q = r.val) : Cert.Spec.Selected x3 p r := by
  refine ⟨⟨q.val / 8, by have := q.isLt; omega⟩, ?_⟩
  have hx := h (ix2 p ⟨q.val / 8, by have := q.isLt; omega⟩)
  unfold col at hc
  apply BitVec.eq_of_toNat_eq
  rw [BitVec.toNat_ofNat]
  omega

/-- The mask the reference scatters, at `(p, r)`: one when coordinate `r` of row `p` is selected, zero otherwise. -/
theorem val_v30 (x3 : IVec Cert.ReferenceIdeal.S16384x4 32)
    (h : ∀ i : Cert.ReferenceIdeal.S16384x4.Idx, (x3 i).toNat < 8) (p : Fin 16384) (r : Fin 64) :
    Cert.ReferenceIdeal.Read.val_main_v30 (F := Ideal) x3 (ix2 p r) = Cert.Spec.mask x3 p r := by
  have hupd : ∀ j, val_main_v29 (F := Ideal) j = (1 : EReal) := by
    intro j
    rw [val_main_v29_apply, val_main_cst_4_apply]
    exact Ideal.ofBits_one_f32
  have hx : val_main_v12 (F := Ideal) (ix2 p r) = (0 : EReal) := by
    rw [val_main_v12_apply, val_main_cst_apply]
    exact Ideal.ofBits_zero_f32
  unfold val_main_v30
  by_cases hs : Cert.Spec.Selected x3 p r
  · rw [Cert.Spec.mask_of_sel hs]
    refine ScatterSet.scatter_of_hit _ _ _ _ (1 : EReal) hupd _ ?_
    obtain ⟨n, hn⟩ := hs
    refine ⟨ix2 p ⟨8 * n.val + r.val % 8, by have := n.isLt; omega⟩, ?_⟩
    rw [resultIdx_eq x3 h]
    congr 1
    funext a
    match a with
    | ⟨0, _⟩ => rfl
    | ⟨1, _⟩ => exact Fin.ext (col_of_sel x3 p r n hn)
  · rw [Cert.Spec.mask_of_not hs, ← hx]
    refine ScatterSet.scatter_of_miss _ _ _ _ (1 : EReal) hupd _ ?_
    rintro ⟨j, hj⟩
    rw [resultIdx_eq x3 h] at hj
    have hij := Option.some.inj hj
    have e0 : j 0 = p := congrFun hij 0
    have e1 : col x3 (j 0) (j 1) = r.val := congrArg Fin.val (congrFun hij 1)
    rw [e0] at e1
    exact hs (sel_of_col x3 h p (j 1) r e1)

end Cert.RefMask
-- ==== Proof.RefValue.lean ====
/-
  The reference's result, entry by entry, is the specification.

  The reference rotates base and source by two host matrix products, subtracts, multiplies by the mask it scattered
  (one on the selected rotated coordinates of each row, zero elsewhere, when every partition id is one of 0 … 7),
  multiplies by the transposed rotation and adds the base: at entry (p, d) this is
    base[p, d] + Σ_r ( Σ_k source[p, k]·W[k, r] − Σ_k base[p, k]·W[k, r] ) · mask(p, r) · W[d, r],
  the transposed rotation read at (r, d) being W[d, r].
-/
import proofs.«428351_j14680198218307_3_alg».proof.Proof.Gen.ReferenceIdeal.Read
import proofs.«428351_j14680198218307_3_alg».proof.Proof.RefMask
import proofs.«428351_j14680198218307_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result array is the specification of its arguments, when every partition id is below 8. -/
theorem reference_eq (x0 x1 : FVec Ideal S16384x4096 .f32) (x2 : FVec Ideal S4096x64 .f32) (x3 : IVec S16384x4 32)
    (h : ∀ i : S16384x4.Idx, (x3 i).toNat < 8) :
    val_main_v34 (F := Ideal) x0 x1 x2 x3 = Cert.Spec.G x0 x1 x2 x3 := by
  funext i
  obtain ⟨p, d, rfl⟩ : ∃ (p : Fin 16384) (d : Fin 4096), i = ix2 p d := ⟨i 0, i 1, eq_ix2 i⟩
  have el : ∀ k : Fin 64, lidx_main_v33 (ix2 p d) k = ix2 p k := fun k => funext fun a => Fin.ext (by
    match a with | ⟨0, _⟩ => rfl | ⟨1, _⟩ => rfl)
  have er : ∀ k : Fin 64, ridx_main_v33 (ix2 p d) k = ix2 k d := fun k => funext fun a => Fin.ext (by
    match a with | ⟨0, _⟩ => rfl | ⟨1, _⟩ => rfl)
  have et : ∀ k : Fin 64, idx_main_v32 (ix2 k d) = ix2 d k := fun k => funext fun a => Fin.ext (by
    match a with | ⟨0, _⟩ => rfl | ⟨1, _⟩ => rfl)
  have el0 : ∀ (k : Fin 64) (j : Fin 4096), lidx_main_v0 (ix2 p k) j = ix2 p j := fun k j => funext fun a => Fin.ext (by
    match a with | ⟨0, _⟩ => rfl | ⟨1, _⟩ => rfl)
  have er0 : ∀ (k : Fin 64) (j : Fin 4096), ridx_main_v0 (ix2 p k) j = ix2 j k := fun k j => funext fun a => Fin.ext (by
    match a with | ⟨0, _⟩ => rfl | ⟨1, _⟩ => rfl)
  have el1 : ∀ (k : Fin 64) (j : Fin 4096), lidx_main_v1 (ix2 p k) j = ix2 p j := fun k j => funext fun a => Fin.ext (by
    match a with | ⟨0, _⟩ => rfl | ⟨1, _⟩ => rfl)
  have er1 : ∀ (k : Fin 64) (j : Fin 4096), ridx_main_v1 (ix2 p k) j = ix2 j k := fun k j => funext fun a => Fin.ext (by
    match a with | ⟨0, _⟩ => rfl | ⟨1, _⟩ => rfl)
  rw [val_main_v34_apply, val_main_v33_apply]
  simp only [el, er, val_main_v31_apply, val_main_v32_apply, et, val_main_v2_apply, val_main_v1_apply, val_main_v0_apply,
    el0, er0, el1, er1, Cert.RefMask.val_v30 x3 h]
  rfl

end Cert.ReferenceIdeal.RefValue

end
-- ==== Proof.lean ====
/-
  A low-rank subspace interchange: out = base + ((source·W − base·W) ⊙ mask) · Wᵀ, where W rotates the 4096
  embedding coordinates into 64, the 64 rotated coordinates fall into eight partitions of eight, and row p's mask
  is one on the partitions its four ids name and zero elsewhere.

  The kernel does this block by block over 64 blocks of 256 rows, building the mask by comparing each rotated
  coordinate's partition r / 8 with the row's ids; the reference builds the mask by scattering ones at the
  columns 8·id + j, j < 8, into zeros. The two masks agree exactly when every id is one of 0 … 7 (a negative id
  would wrap around in the reference's indexing and select a partition the kernel does not), which the
  precondition states. Under it both programs compute, at entry (p, d),
    base[p, d] + Σ_r ( Σ_k source[p, k]·W[k, r] − Σ_k base[p, k]·W[k, r] ) · mask(p, r) · W[d, r]
  with the same sums of the same products, so they are equal over the extended reals without any arithmetic law.

  Spec: the function. Products, Selection, BlockValue: the kernel's stored block at an entry. ArrayValue: the
  blocks cover the array. IdRange: the precondition bounds the ids. ScatterSet, RefMask, RefValue: the
  reference's scattered mask and result.
-/
import proofs.«428351_j14680198218307_3_alg».proof.Defs
import proofs.«428351_j14680198218307_3_alg».proof.Proof.Gen.Kernel
import proofs.«428351_j14680198218307_3_alg».proof.Proof.Gen.Kernel.Frame
import proofs.«428351_j14680198218307_3_alg».proof.Proof.Gen.KernelIdeal
import proofs.«428351_j14680198218307_3_alg».proof.Proof.Gen.KernelIdeal.Frame
import proofs.«428351_j14680198218307_3_alg».proof.Proof.Gen.KernelIdeal.Value
import proofs.«428351_j14680198218307_3_alg».proof.Proof.Gen.ReferenceIdeal
import proofs.«428351_j14680198218307_3_alg».proof.Proof.Gen.ReferenceIdeal.Run
import proofs.«428351_j14680198218307_3_alg».proof.Proof.Gen.ReferenceIdeal.Read
import proofs.«428351_j14680198218307_3_alg».proof.Proof.Gen.Pre_finite_inputs
import proofs.«428351_j14680198218307_3_alg».proof.Proof.ArrayValue
import proofs.«428351_j14680198218307_3_alg».proof.Proof.IdRange
import proofs.«428351_j14680198218307_3_alg».proof.Proof.RefValue
import Idealize.ShloMosaic.Adequacy
import Idealize.ShloMosaic.Init

noncomputable section

namespace Cert.Proof.Claims

open Idealize.ShloMosaic Idealize.ShloMosaic.TcCoe Idealize.SL.Sem

/-- The word-level kernel runs and leaves its arguments: the generated frame, whole. -/
theorem frame_kernel : Cert.frame_Kernel := fun m ρ _ => Cert.Kernel.Gen.frame m ρ

/-- The same for the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the specification of their (agreeing) arguments in the result
    array: the kernel block by block, the reference because under the precondition every partition id is one of
    0 … 7, so the mask it scatters is the selection mask. No arithmetic law is needed: the two sides are the same
    sums of the same products. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2]
  exact Cert.ReferenceIdeal.RefValue.reference_eq _ _ _ _ (Cert.IdRange.ids_in_range _ _ _ _ (hpre c))

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, trivial, Claims.algebraic⟩

end Cert.Proof

end
